-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x512 : Shape := ⟨3, ![16, 512, 512]⟩
abbrev S16x64x512 : Shape := ⟨3, ![16, 64, 512]⟩
abbrev S500x512 : Shape := ⟨2, ![500, 512]⟩
abbrev S500 : Shape := ⟨1, ![500]⟩
abbrev S306874 : Shape := ⟨1, ![306874]⟩
abbrev S_ : Shape := ⟨0, ![]⟩

class Facts : Prop where
  bcast_S_S16x512x512 : S_.BroadcastsInDim S16x512x512 (![] : Fin 0 → Fin S16x512x512.rank)
  reducesTo_S16x512x512_S_d0_1_2 : S16x512x512.ReducesTo [0, 1, 2] S_
  h_S_ : 0 < S_.numel
  bcast_S_S16x64x512 : S_.BroadcastsInDim S16x64x512 (![] : Fin 0 → Fin S16x64x512.rank)
  reducesTo_S16x64x512_S_d0_1_2 : S16x64x512.ReducesTo [0, 1, 2] S_
  bcast_S_S500x512 : S_.BroadcastsInDim S500x512 (![] : Fin 0 → Fin S500x512.rank)
  reducesTo_S500x512_S_d0_1 : S500x512.ReducesTo [0, 1] S_
  bcast_S_S500 : S_.BroadcastsInDim S500 (![] : Fin 0 → Fin S500.rank)
  reducesTo_S500_S_d0 : S500.ReducesTo [0] S_

variable [Facts]

def fn_part1 {F : FTy → Type} [FloatOps F] (main_v13 : IVec S_ 1) (main_v16 : IVec S500 1) : IVec S_ 1 :=
  let main_c_5 : IVec S_ 1 := constantI S_ 1 1#1
  let main_v17 : IVec S_ 1 := (fun x v => Host.reduce IntOp.andi x v reducesTo_S500_S_d0 h_S_) main_v16 main_c_5
  let main_v18 : IVec S_ 1 := andi main_v13 main_v17
  main_v18

def fn {F : FTy → Type} [FloatOps F] (main_arg0 : FVec F S16x512x512 .f32) (main_arg1 : FVec F S16x64x512 .f32) (main_arg2 : FVec F S500x512 .f32) (main_arg3 : FVec F S500 .f32) (main_arg4 : IVec S306874 32) (main_arg5 : IVec S306874 32) (main_arg6 : IVec S306874 32) : IVec S_ 1 :=
  let main_v0 : FVec F S16x512x512 .f32 := Host.absf main_arg0
  let main_cst : FVec F S_ .f32 := constant S_ .f32 0x7F800000#32
  let main_v1 : FVec F S16x512x512 .f32 := broadcastInDim S16x512x512 ![] bcast_S_S16x512x512 main_cst
  let main_v2 : IVec S16x512x512 1 := cmpf .olt main_v0 main_v1
  let main_c : IVec S_ 1 := constantI S_ 1 1#1
  let main_v3 : IVec S_ 1 := (fun x v => Host.reduce IntOp.andi x v reducesTo_S16x512x512_S_d0_1_2 h_S_) main_v2 main_c
  let main_v4 : FVec F S16x64x512 .f32 := Host.absf main_arg1
  let main_cst_0 : FVec F S_ .f32 := constant S_ .f32 0x7F800000#32
  let main_v5 : FVec F S16x64x512 .f32 := broadcastInDim S16x64x512 ![] bcast_S_S16x64x512 main_cst_0
  let main_v6 : IVec S16x64x512 1 := cmpf .olt main_v4 main_v5
  let main_c_1 : IVec S_ 1 := constantI S_ 1 1#1
  let main_v7 : IVec S_ 1 := (fun x v => Host.reduce IntOp.andi x v reducesTo_S16x64x512_S_d0_1_2 h_S_) main_v6 main_c_1
  let main_v8 : IVec S_ 1 := andi main_v3 main_v7
  let main_v9 : FVec F S500x512 .f32 := Host.absf main_arg2
  let main_cst_2 : FVec F S_ .f32 := constant S_ .f32 0x7F800000#32
  let main_v10 : FVec F S500x512 .f32 := broadcastInDim S500x512 ![] bcast_S_S500x512 main_cst_2
  let main_v11 : IVec S500x512 1 := cmpf .olt main_v9 main_v10
  let main_c_3 : IVec S_ 1 := constantI S_ 1 1#1
  let main_v12 : IVec S_ 1 := (fun x v => Host.reduce IntOp.andi x v reducesTo_S500x512_S_d0_1 h_S_) main_v11 main_c_3
  let main_v13 : IVec S_ 1 := andi main_v8 main_v12
  let main_v14 : FVec F S500 .f32 := Host.absf main_arg3
  let main_cst_4 : FVec F S_ .f32 := constant S_ .f32 0x7F800000#32
  let main_v15 : FVec F S500 .f32 := broadcastInDim S500 ![] bcast_S_S500 main_cst_4
  let main_v16 : IVec S500 1 := cmpf .olt main_v14 main_v15
  fn_part1 (F := F) main_v13 main_v16
-- ==== Kernel.lean ====
abbrev S16x512x512 : Shape := ⟨3, ![16, 512, 512]⟩
abbrev S16x64x512 : Shape := ⟨3, ![16, 64, 512]⟩
abbrev S500x512 : Shape := ⟨2, ![500, 512]⟩
abbrev S500 : Shape := ⟨1, ![500]⟩
abbrev S306874 : Shape := ⟨1, ![306874]⟩
abbrev S_ : Shape := ⟨0, ![]⟩
abbrev S306874x1 : Shape := ⟨2, ![306874, 1]⟩
abbrev S306874x2 : Shape := ⟨2, ![306874, 2]⟩
abbrev S306874x512 : Shape := ⟨2, ![306874, 512]⟩
abbrev S512x512 : Shape := ⟨2, ![512, 512]⟩
abbrev S1 : Shape := ⟨1, ![1]⟩
abbrev S512 : Shape := ⟨1, ![512]⟩
abbrev S1x512 : Shape := ⟨2, ![1, 512]⟩
abbrev S307200x512 : Shape := ⟨2, ![307200, 512]⟩
abbrev S2048x512 : Shape := ⟨2, ![2048, 512]⟩
abbrev S306874x500 : Shape := ⟨2, ![306874, 500]⟩

abbrev nBuf : Space → Nat
  | .hbm => 62
  | .vmem => 6
  | .smem => 0
  | _ => 0

abbrev bufTy : (tb : Table) → Fin (tcTables nBuf tb) → BufTy
  | .hbm, ⟨0, _⟩ => ⟨S16x512x512, .f32⟩
  | .hbm, ⟨1, _⟩ => ⟨S16x64x512, .f32⟩
  | .hbm, ⟨2, _⟩ => ⟨S500x512, .f32⟩
  | .hbm, ⟨3, _⟩ => ⟨S500, .f32⟩
  | .hbm, ⟨4, _⟩ => ⟨S306874, .i32⟩
  | .hbm, ⟨5, _⟩ => ⟨S306874, .i32⟩
  | .hbm, ⟨6, _⟩ => ⟨S306874, .i32⟩
  | .hbm, ⟨7, _⟩ => ⟨S_, .i32⟩
  | .hbm, ⟨8, _⟩ => ⟨S306874, .i32⟩
  | .hbm, ⟨9, _⟩ => ⟨S306874, .i1⟩
  | .hbm, ⟨10, _⟩ => ⟨S_, .i32⟩
  | .hbm, ⟨11, _⟩ => ⟨S306874, .i32⟩
  | .hbm, ⟨12, _⟩ => ⟨S306874, .i32⟩
  | .hbm, ⟨13, _⟩ => ⟨S306874, .i32⟩
  | .hbm, ⟨14, _⟩ => ⟨S_, .i32⟩
  | .hbm, ⟨15, _⟩ => ⟨S306874, .i32⟩
  | .hbm, ⟨16, _⟩ => ⟨S306874, .i1⟩
  | .hbm, ⟨17, _⟩ => ⟨S_, .i32⟩
  | .hbm, ⟨18, _⟩ => ⟨S306874, .i32⟩
  | .hbm, ⟨19, _⟩ => ⟨S306874, .i32⟩
  | .hbm, ⟨20, _⟩ => ⟨S306874, .i32⟩
  | .hbm, ⟨21, _⟩ => ⟨S306874x1, .i32⟩
  | .hbm, ⟨22, _⟩ => ⟨S306874x1, .i32⟩
  | .hbm, ⟨23, _⟩ => ⟨S306874x2, .i32⟩
  | .hbm, ⟨24, _⟩ => ⟨S306874x512, .f32⟩
  | .hbm, ⟨25, _⟩ => ⟨S_, .i32⟩
  | .hbm, ⟨26, _⟩ => ⟨S306874, .i32⟩
  | .hbm, ⟨27, _⟩ => ⟨S306874, .i1⟩
  | .hbm, ⟨28, _⟩ => ⟨S_, .i32⟩
  | .hbm, ⟨29, _⟩ => ⟨S306874, .i32⟩
  | .hbm, ⟨30, _⟩ => ⟨S306874, .i32⟩
  | .hbm, ⟨31, _⟩ => ⟨S306874, .i32⟩
  | .hbm, ⟨32, _⟩ => ⟨S_, .i32⟩
  | .hbm, ⟨33, _⟩ => ⟨S306874, .i32⟩
  | .hbm, ⟨34, _⟩ => ⟨S306874, .i1⟩
  | .hbm, ⟨35, _⟩ => ⟨S_, .i32⟩
  | .hbm, ⟨36, _⟩ => ⟨S306874, .i32⟩
  | .hbm, ⟨37, _⟩ => ⟨S306874, .i32⟩
  | .hbm, ⟨38, _⟩ => ⟨S306874, .i32⟩
  | .hbm, ⟨39, _⟩ => ⟨S306874x1, .i32⟩
  | .hbm, ⟨40, _⟩ => ⟨S306874x1, .i32⟩
  | .hbm, ⟨41, _⟩ => ⟨S306874x2, .i32⟩
  | .hbm, ⟨42, _⟩ => ⟨S306874x512, .f32⟩
  | .hbm, ⟨43, _⟩ => ⟨S306874x512, .f32⟩
  | .hbm, ⟨44, _⟩ => ⟨S_, .f32⟩
  | .hbm, ⟨45, _⟩ => ⟨S512x512, .f32⟩
  | .hbm, ⟨46, _⟩ => ⟨S_, .i32⟩
  | .hbm, ⟨47, _⟩ => ⟨S1, .i32⟩
  | .hbm, ⟨48, _⟩ => ⟨S512x512, .f32⟩
  | .hbm, ⟨49, _⟩ => ⟨S_, .f32⟩
  | .hbm, ⟨50, _⟩ => ⟨S512, .f32⟩
  | .hbm, ⟨51, _⟩ => ⟨S_, .i32⟩
  | .hbm, ⟨52, _⟩ => ⟨S1, .i32⟩
  | .hbm, ⟨53, _⟩ => ⟨S512, .f32⟩
  | .hbm, ⟨54, _⟩ => ⟨S512x512, .f32⟩
  | .hbm, ⟨55, _⟩ => ⟨S512x512, .bf16⟩
  | .hbm, ⟨56, _⟩ => ⟨S1x512, .f32⟩
  | .hbm, ⟨57, _⟩ => ⟨S_, .i32⟩
  | .hbm, ⟨58, _⟩ => ⟨S_, .f32⟩
  | .hbm, ⟨59, _⟩ => ⟨S307200x512, .f32⟩
  | .hbm, ⟨60, _⟩ => ⟨S307200x512, .f32⟩
  | .hbm, ⟨61, _⟩ => ⟨S306874x500, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | _, _ => ⟨S16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_c_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_10 : Ref sig .tc := ⟨.hbm, 57, rfl⟩
abbrev main_call0_v0 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![150], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S306874 : S_.BroadcastsInDim S306874 (![] : Fin 0 → Fin S306874.rank)
  bcast_S306874_S306874x1_0 : S306874.BroadcastsInDim S306874x1 (![0] : Fin 1 → Fin S306874x1.rank)
  concatenates_S306874x1_S306874x1_S306874x2_d1 : Shape.Concatenates [S306874x1, S306874x1] S306874x2 1
  bcast_S_S512x512 : S_.BroadcastsInDim S512x512 (![] : Fin 0 → Fin S512x512.rank)
  bcast_S_S1 : S_.BroadcastsInDim S1 (![] : Fin 0 → Fin S1.rank)
  bcast_S_S512 : S_.BroadcastsInDim S512 (![] : Fin 0 → Fin S512.rank)
  transposes_S512x512_S512x512_1_0 : S512x512.Transposes [1, 0] S512x512
  bitsLt_bf16_f32 : FTy.bits .bf16 < FTy.bits .f32
  shapeCasts_S512_S1x512 : S512.ShapeCasts S1x512
  pads_S306874x512_S307200x512_03260_000 : S306874x512.Pads (![0, 0] : Fin 2 → Nat) ![326, 0] ![0, 0] S307200x512
  h_S_ : 0 < S_.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  slices_S307200x512_S306874x500_0_0 : S307200x512.Slices ![0, 0] S306874x500
  gather_S16x512x512_S306874x2_S306874x512_1_01_n_n_01_1_11512_wf : GatherDims.WF S16x512x512 S306874x2 S306874x512 [1] [0, 1] [] [0, 1] [] 1 ![1, 1, 512]
  gather_S16x64x512_S306874x2_S306874x512_1_01_n_n_01_1_11512_wf : GatherDims.WF S16x64x512 S306874x2 S306874x512 [1] [0, 1] [] [0, 1] [] 1 ![1, 1, 512]
  scatter_S512x512_S1_S500x512_01_n_0_0_wf : ScatterDims.WF S512x512 S1 S500x512 [0, 1] [] [0] 0
  scatter_S512_S1_S500_0_n_0_0_wf : ScatterDims.WF S512 S1 S500 [0] [] [0] 0
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S307200x512.size a
  hwx0_0 : ∀ i : grid0.Coords, EltTy.bits .f32 = 32 ∨ (Rect.block (s := S307200x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S307200x512.size a
  hwx0_3 : ∀ i : grid0.Coords, EltTy.bits .f32 = 32 ∨ (Rect.block (s := S307200x512) S2048x512.size (cc0_transform_3 i) (hinb0_3 i)).WholeWords (EltTy.packing .f32)

variable [Facts₀]

def gather_S16x512x512_S306874x2_S306874x512_1_01_n_n_01_1_11512 : GatherDims S16x512x512 S306874x2 S306874x512 where
  offsetDims := [1]
  collapsedSliceDims := [0, 1]
  operandBatchingDims := []
  startIndicesBatchingDims := []
  startIndexMap := [0, 1]
  indexVectorDim := 1
  sliceSizes := ![1, 1, 512]
  wf := gather_S16x512x512_S306874x2_S306874x512_1_01_n_n_01_1_11512_wf
def gather_S16x64x512_S306874x2_S306874x512_1_01_n_n_01_1_11512 : GatherDims S16x64x512 S306874x2 S306874x512 where
  offsetDims := [1]
  collapsedSliceDims := [0, 1]
  operandBatchingDims := []
  startIndicesBatchingDims := []
  startIndexMap := [0, 1]
  indexVectorDim := 1
  sliceSizes := ![1, 1, 512]
  wf := gather_S16x64x512_S306874x2_S306874x512_1_01_n_n_01_1_11512_wf
def scatter_S512x512_S1_S500x512_01_n_0_0 : ScatterDims S512x512 S1 S500x512 where
  updateWindowDims := [0, 1]
  insertedWindowDims := []
  scatterDimsToOperandDims := [0]
  indexVectorDim := 0
  wf := scatter_S512x512_S1_S500x512_01_n_0_0_wf
def scatter_S512_S1_S500_0_n_0_0 : ScatterDims S512 S1 S500 where
  updateWindowDims := [0]
  insertedWindowDims := []
  scatterDimsToOperandDims := [0]
  indexVectorDim := 0
  wf := scatter_S512_S1_S500_0_n_0_0_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v38) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x512x512 : Shape := ⟨3, ![16, 512, 512]⟩
abbrev S16x64x512 : Shape := ⟨3, ![16, 64, 512]⟩
abbrev S500x512 : Shape := ⟨2, ![500, 512]⟩
abbrev S500 : Shape := ⟨1, ![500]⟩
abbrev S306874 : Shape := ⟨1, ![306874]⟩
abbrev S_ : Shape := ⟨0, ![]⟩
abbrev S306874x1 : Shape := ⟨2, ![306874, 1]⟩
abbrev S306874x2 : Shape := ⟨2, ![306874, 2]⟩
abbrev S306874x512 : Shape := ⟨2, ![306874, 512]⟩
abbrev S512x500 : Shape := ⟨2, ![512, 500]⟩
abbrev S306874x500 : Shape := ⟨2, ![306874, 500]⟩
abbrev S1x500 : Shape := ⟨2, ![1, 500]⟩

abbrev nBuf : Space → Nat
  | .hbm => 50
  | .vmem => 0
  | .smem => 0
  | _ => 0

abbrev bufTy : (tb : Table) → Fin (tcTables nBuf tb) → BufTy
  | .hbm, ⟨0, _⟩ => ⟨S16x512x512, .f32⟩
  | .hbm, ⟨1, _⟩ => ⟨S16x64x512, .f32⟩
  | .hbm, ⟨2, _⟩ => ⟨S500x512, .f32⟩
  | .hbm, ⟨3, _⟩ => ⟨S500, .f32⟩
  | .hbm, ⟨4, _⟩ => ⟨S306874, .i32⟩
  | .hbm, ⟨5, _⟩ => ⟨S306874, .i32⟩
  | .hbm, ⟨6, _⟩ => ⟨S306874, .i32⟩
  | .hbm, ⟨7, _⟩ => ⟨S_, .i32⟩
  | .hbm, ⟨8, _⟩ => ⟨S306874, .i32⟩
  | .hbm, ⟨9, _⟩ => ⟨S306874, .i1⟩
  | .hbm, ⟨10, _⟩ => ⟨S_, .i32⟩
  | .hbm, ⟨11, _⟩ => ⟨S306874, .i32⟩
  | .hbm, ⟨12, _⟩ => ⟨S306874, .i32⟩
  | .hbm, ⟨13, _⟩ => ⟨S306874, .i32⟩
  | .hbm, ⟨14, _⟩ => ⟨S_, .i32⟩
  | .hbm, ⟨15, _⟩ => ⟨S306874, .i32⟩
  | .hbm, ⟨16, _⟩ => ⟨S306874, .i1⟩
  | .hbm, ⟨17, _⟩ => ⟨S_, .i32⟩
  | .hbm, ⟨18, _⟩ => ⟨S306874, .i32⟩
  | .hbm, ⟨19, _⟩ => ⟨S306874, .i32⟩
  | .hbm, ⟨20, _⟩ => ⟨S306874, .i32⟩
  | .hbm, ⟨21, _⟩ => ⟨S306874x1, .i32⟩
  | .hbm, ⟨22, _⟩ => ⟨S306874x1, .i32⟩
  | .hbm, ⟨23, _⟩ => ⟨S306874x2, .i32⟩
  | .hbm, ⟨24, _⟩ => ⟨S306874x512, .f32⟩
  | .hbm, ⟨25, _⟩ => ⟨S_, .i32⟩
  | .hbm, ⟨26, _⟩ => ⟨S306874, .i32⟩
  | .hbm, ⟨27, _⟩ => ⟨S306874, .i1⟩
  | .hbm, ⟨28, _⟩ => ⟨S_, .i32⟩
  | .hbm, ⟨29, _⟩ => ⟨S306874, .i32⟩
  | .hbm, ⟨30, _⟩ => ⟨S306874, .i32⟩
  | .hbm, ⟨31, _⟩ => ⟨S306874, .i32⟩
  | .hbm, ⟨32, _⟩ => ⟨S_, .i32⟩
  | .hbm, ⟨33, _⟩ => ⟨S306874, .i32⟩
  | .hbm, ⟨34, _⟩ => ⟨S306874, .i1⟩
  | .hbm, ⟨35, _⟩ => ⟨S_, .i32⟩
  | .hbm, ⟨36, _⟩ => ⟨S306874, .i32⟩
  | .hbm, ⟨37, _⟩ => ⟨S306874, .i32⟩
  | .hbm, ⟨38, _⟩ => ⟨S306874, .i32⟩
  | .hbm, ⟨39, _⟩ => ⟨S306874x1, .i32⟩
  | .hbm, ⟨40, _⟩ => ⟨S306874x1, .i32⟩
  | .hbm, ⟨41, _⟩ => ⟨S306874x2, .i32⟩
  | .hbm, ⟨42, _⟩ => ⟨S306874x512, .f32⟩
  | .hbm, ⟨43, _⟩ => ⟨S306874x512, .f32⟩
  | .hbm, ⟨44, _⟩ => ⟨S306874x512, .f32⟩
  | .hbm, ⟨45, _⟩ => ⟨S512x500, .f32⟩
  | .hbm, ⟨46, _⟩ => ⟨S306874x500, .f32⟩
  | .hbm, ⟨47, _⟩ => ⟨S1x500, .f32⟩
  | .hbm, ⟨48, _⟩ => ⟨S306874x500, .f32⟩
  | .hbm, ⟨49, _⟩ => ⟨S306874x500, .f32⟩
  | _, _ => ⟨S16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  bcast_S_S306874 : S_.BroadcastsInDim S306874 (![] : Fin 0 → Fin S306874.rank)
  bcast_S306874_S306874x1_0 : S306874.BroadcastsInDim S306874x1 (![0] : Fin 1 → Fin S306874x1.rank)
  concatenates_S306874x1_S306874x1_S306874x2_d1 : Shape.Concatenates [S306874x1, S306874x1] S306874x2 1
  transposes_S500x512_S512x500_1_0 : S500x512.Transposes [1, 0] S512x500
  bcast_S500_S1x500_1 : S500.BroadcastsInDim S1x500 (![1] : Fin 1 → Fin S1x500.rank)
  bcast_S1x500_S306874x500_0_1 : S1x500.BroadcastsInDim S306874x500 (![0, 1] : Fin 2 → Fin S306874x500.rank)
  gather_S16x512x512_S306874x2_S306874x512_1_01_n_n_01_1_11512_wf : GatherDims.WF S16x512x512 S306874x2 S306874x512 [1] [0, 1] [] [0, 1] [] 1 ![1, 1, 512]
  gather_S16x64x512_S306874x2_S306874x512_1_01_n_n_01_1_11512_wf : GatherDims.WF S16x64x512 S306874x2 S306874x512 [1] [0, 1] [] [0, 1] [] 1 ![1, 1, 512]
  dot_S306874x512_S512x500_S306874x500_1_0_0_1_n_n_wf : DotDims.WF S306874x512 S512x500 S306874x500 [1] [0] [0] [1] [] []

variable [Facts₀]

def gather_S16x512x512_S306874x2_S306874x512_1_01_n_n_01_1_11512 : GatherDims S16x512x512 S306874x2 S306874x512 where
  offsetDims := [1]
  collapsedSliceDims := [0, 1]
  operandBatchingDims := []
  startIndicesBatchingDims := []
  startIndexMap := [0, 1]
  indexVectorDim := 1
  sliceSizes := ![1, 1, 512]
  wf := gather_S16x512x512_S306874x2_S306874x512_1_01_n_n_01_1_11512_wf
def gather_S16x64x512_S306874x2_S306874x512_1_01_n_n_01_1_11512 : GatherDims S16x64x512 S306874x2 S306874x512 where
  offsetDims := [1]
  collapsedSliceDims := [0, 1]
  operandBatchingDims := []
  startIndicesBatchingDims := []
  startIndexMap := [0, 1]
  indexVectorDim := 1
  sliceSizes := ![1, 1, 512]
  wf := gather_S16x64x512_S306874x2_S306874x512_1_01_n_n_01_1_11512_wf
def dot_S306874x512_S512x500_S306874x500_1_0_0_1_n_n : DotDims S306874x512 S512x500 S306874x500 where
  lhsContracting := [1]
  rhsContracting := [0]
  lhsNonContracting := [0]
  rhsNonContracting := [1]
  lhsBatch := []
  rhsBatch := []
  wf := dot_S306874x512_S512x500_S306874x500_1_0_0_1_n_n_wf

class Facts : Prop extends Facts₀ where

variable [Facts]
-- ==== Proof.Entry.lean ====
/-
  What the kernel's one region finds in the three arrays it reads, as host values of the program's arguments.

  Before the region the host gathers the rows (`rows`: for every valid triple the encoder's row plus the decoder's row),
  pads them with zero rows up to a whole number of blocks, writes the weight into the first 500 rows of a zero
  512 × 512 matrix, transposes it and narrows it to bf16, and writes the bias into the first 500 entries of a zero
  vector of 512, reshaped to one row.
-/
import proofs.«151189_j14594298872273_1_alg».proof.Proof.Gen.KernelIdeal.Frame
import Idealize.ShloMosaic.Lib.StableHlo.Run
import Idealize.ShloMosaic.Lib.ValueIdx
import Idealize.ShloMosaic.Lib.Pipeline.Value

set_option maxRecDepth 16384

noncomputable section

namespace Cert.KernelIdeal.Entry

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-- The contents after two stretches of host operations run one after the other. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-- The gathered rows: what the host's first stretch leaves in the buffer of the sum of the two gathers. -/
def rows (c : Dev nD) : S306874x512.Idx → Elt Ideal .f32 :=
  StableHlo.after (hostOps0 (F := Ideal)) (fun b => m (c, b)) (Proc.devRef .tc main_v28)

/-- The integer the padding value is converted from is the constant zero. -/
theorem pad_word (c : Dev nD) :
    (StableHlo.after (hostOps0 (F := Ideal)) (fun b => m (c, b)) (Proc.devRef .tc main_c_10) : S_.Idx → BitVec 32)
      = constantI S_ 32 0#32 := by
  after_results_simp

/-- The region's first array: the gathered rows followed by 326 rows of the padding value. -/
theorem entry_rows (c : Dev nD) :
    (V m c main_v38 : S307200x512.Idx → Elt Ideal .f32)
      = pad S307200x512 ![0, 0] ![326, 0] ![0, 0] (rows m c) (sitofp .f32 (constantI S_ 32 0#32) : FVec Ideal S_ .f32)
          pads_S306874x512_S307200x512_03260_000 h_S_ := by
  have hw := pad_word m c
  unfold rows
  dsimp only [V, V0]
  rw [show List.flatten [hostOps0 (F := Ideal), hostOps0_1] = hostOps0 ++ hostOps0_1 from by
    simp only [List.flatten_cons, List.flatten_nil, List.append_nil], after_append]
  generalize StableHlo.after (hostOps0 (F := Ideal)) (fun b => m (c, b)) = V₁ at hw ⊢
  after_results
  rw [hw]
  rfl

/-- The region's second array: the weight written over the first 500 rows of zeros, transposed. -/
theorem entry_weight (c : Dev nD) :
    (V m c main_v36 : S512x512.Idx → Elt Ideal .bf16)
      = truncf .bf16 (transpose S512x512 [1, 0]
          (Host.scatter scatter_S512x512_S1_S500x512_01_n_0_0 (fun _ b => b)
            (broadcastInDim S512x512 ![] bcast_S_S512x512 (constant (F := Ideal) S_ .f32 0x00000000#32))
            (broadcastInDim S1 ![] bcast_S_S1 (constantI S_ 32 0#32)) (m ((c.tc : Thread nD τ).loc main_arg2)))
          transposes_S512x512_S512x512_1_0) bitsLt_bf16_f32 := by
  dsimp only [V, V0]
  simp only [hostOps0, hostOps0_1, List.flatten_cons, List.flatten_nil, List.append_nil, List.cons_append, List.nil_append]
  after_results_simp

/-- The region's third array: the bias written over the first 500 entries of zeros, as one row. -/
theorem entry_bias (c : Dev nD) :
    (V m c main_v37 : S1x512.Idx → Elt Ideal .f32)
      = shapeCast S1x512
          (Host.scatter scatter_S512_S1_S500_0_n_0_0 (fun _ b => b)
            (broadcastInDim S512 ![] bcast_S_S512 (constant (F := Ideal) S_ .f32 0x00000000#32))
            (broadcastInDim S1 ![] bcast_S_S1 (constantI S_ 32 0#32)) (m ((c.tc : Thread nD τ).loc main_arg3)))
          shapeCasts_S512_S1x512 := by
  dsimp only [V, V0]
  simp only [hostOps0, hostOps0_1, List.flatten_cons, List.flatten_nil, List.append_nil, List.cons_append, List.nil_append]
  after_results_simp
  rfl

end Cert.KernelIdeal.Entry

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.KernelBody.lean ====
/-
  One grid step of the kernel, read at an entry.

  A step holds a block of 2048 padded rows `x`, the whole padded and transposed weight `w` (512 features × 512 padded
  classes) and the padded bias `b` (one row of 512). It stores, at row `p` and padded class `q`,

      ∑ k < 512, tanh (x p k) · w k q  +  b 0 q :

  the narrowing of the activations to bf16 is the identity on the extended reals, the block product into a zero
  accumulator is the plain sum over the contracted axis, and the bias row is repeated down the rows.
-/
import proofs.«151189_j14594298872273_1_alg».proof.Proof.Gen.KernelIdeal.Skeleton
import proofs.«151189_j14594298872273_1_alg».proof.Proof.LibContraction
import Idealize.ShloMosaic.PureOps.Ideal.Laws
import Idealize.ShloMosaic.Lib.ValueIdx
import Idealize.ShloMosaic.Lib.Pipeline.Value

noncomputable section

open scoped BigOperators

namespace Cert.KernelIdeal.Body

open Cert.KernelIdeal Cert.KernelIdeal.Gen
open Idealize.ShloMosaic Idealize.ShloMosaic.ValueIdx Cert.Lib.Contraction

/-- The block product at row `p` and padded class `q` is the sum over the features of the left operand's entry in row
    `p` times the right operand's entry in column `q`. -/
theorem product_apply (a : FVec Ideal S2048x512 .bf16) (w : FVec Ideal S512x512 .bf16) (p : Fin 2048) (q : Fin 512) :
    matmul dot_S2048x512_S512x512_S2048x512_1_0_0_1_n_n none a w (constant S2048x512 .f32 0x00000000#32) (ix2 p q)
      = ∑ k : Fin 512, a (ix2 p k) * w (ix2 k q) := by
  simp only [matmul]
  rw [Ideal.matmul_constant_zero_apply,
    sum_contr dot_S2048x512_S512x512_S2048x512_1_0_0_1_n_n (cl := 1) rfl 512 rfl]
  refine Finset.sum_congr rfl fun k _ => ?_
  have el : dot_S2048x512_S512x512_S2048x512_1_0_0_1_n_n.lhsIdx (ix2 p q)
      ((contrFin dot_S2048x512_S512x512_S2048x512_1_0_0_1_n_n (cl := 1) rfl 512 rfl).symm k) = ix2 p k :=
    funext fun ax => Fin.ext (by
      match ax with
      | ⟨0, _⟩ => exact lhs_free dot_S2048x512_S512x512_S2048x512_1_0_0_1_n_n (nl := 0) rfl rfl (ix2 p q) _ (by decide)
      | ⟨1, _⟩ => exact lhs_contracted dot_S2048x512_S512x512_S2048x512_1_0_0_1_n_n (cl := 1) rfl 512 rfl (ix2 p q) k)
  have er : dot_S2048x512_S512x512_S2048x512_1_0_0_1_n_n.rhsIdx (ix2 p q)
      ((contrFin dot_S2048x512_S512x512_S2048x512_1_0_0_1_n_n (cl := 1) rfl 512 rfl).symm k) = ix2 k q :=
    funext fun ax => Fin.ext (by
      match ax with
      | ⟨0, _⟩ => exact rhs_contracted dot_S2048x512_S512x512_S2048x512_1_0_0_1_n_n (cl := 1) (cr := 0) rfl rfl 512 rfl (ix2 p q) k
      | ⟨1, _⟩ => exact rhs_free dot_S2048x512_S512x512_S2048x512_1_0_0_1_n_n (nl := 0) (nr := 1) rfl rfl rfl rfl (ix2 p q) _ (by decide))
  rw [el, er]

/-- The bias row repeated down the rows, read at row `p` and padded class `q`, is the bias at `q`. -/
theorem bias_row_apply (b : Vec Ideal S1x512 .f32) (p : Fin 2048) (q : Fin 512) :
    broadcastTo S2048x512 b broadcasts_S1x512_S2048x512 (ix2 p q) = b (ix2 0 q) :=
  broadcastTo_apply b broadcasts_S1x512_S2048x512 (ix2 p q) (ix2 0 q) (fun ax => by
    match ax with
    | ⟨0, _⟩ => rfl
    | ⟨1, _⟩ => rfl)

/-- What one step stores at row `p` and padded class `q`. -/
theorem payload_apply (x : Vec Ideal S2048x512 .f32) (w : Vec Ideal S512x512 .bf16) (b : Vec Ideal S1x512 .f32)
    (p : Fin 2048) (q : Fin 512) :
    k0_pay1 (F := Ideal) x w b (ix2 p q) = (∑ k : Fin 512, Ideal.tanh (x (ix2 p k)) * w (ix2 k q)) + b (ix2 0 q) := by
  unfold k0_pay1
  rw [shapeCast_self x, shapeCast_self w, shapeCast_self b, addf_apply, product_apply, bias_row_apply]
  rfl

end Cert.KernelIdeal.Body

end
-- ==== Proof.RegionBlocks.lean ====
/-
  Which rows each grid step takes.

  The grid has 150 steps. Step `t` reads block `t` of the padded rows (2048 rows, all 512 features), the one block of
  the padded weight and the one block of the padded bias, and writes block `t` of the result. The 150 blocks of 2048 rows
  tile the 307200 rows: the row `r` lies in the block of step `r / 2048`.
-/
import proofs.«151189_j14594298872273_1_alg».proof.Proof.Gen.KernelIdeal.Frame
import Idealize.ShloMosaic.Lib.StableHlo.Run
import Idealize.ShloMosaic.Lib.ValueIdx
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.ShloMosaic.StableHlo
open Idealize.SL Idealize.SL.Sem

theorem origin : (![0, 0] : Fin 2 → Nat) = fun _ => 0 := funext fun a => by fin_cases a <;> rfl

/-- The index maps over the grid: step `t` takes block `t` of the rows and of the result along the row axis, block 0
    along the other, and block (0, 0) of the weight and of the bias. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- An index of the result is in step `t`'s block when each coordinate is in the block's range on its axis. -/
theorem mem_blk (t : Fin cfg0.N) (i : S307200x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v39).slice (win0_3.rect t)).set ↔ _
  rw [View.set_slice_whole, Rect.mem_set_unit]
  exact Iff.rfl

/-- Every index of the result lies in the block of the step its row falls in. -/
theorem covered (i : S307200x512.Idx) : ∃ t : Fin cfg0.N, (cfg0.win 3).flush t = true ∧ i ∈ ((cfg0.win 3).blk t).view.set := by
  have hi0 : (i 0).val < 307200 := (i 0).isLt
  have hi1 : (i 1).val < 512 := (i 1).isLt
  have ht : (i 0).val / 2048 < cfg0.N := by rw [show cfg0.N = 150 from N_0]; omega
  obtain ⟨e00, e01, e10, e11, e20, e21, e30, e31⟩ := block_indices ⟨(i 0).val / 2048, ht⟩
  refine ⟨⟨(i 0).val / 2048, ht⟩, flush0_3 _, ?_⟩
  rw [mem_blk]
  intro a
  match a with
  | ⟨0, _⟩ =>
    show win0_3.index ⟨(i 0).val / 2048, ht⟩ (0 : Fin 2) * 2048 ≤ (i 0).val ∧ (i 0).val < win0_3.index ⟨(i 0).val / 2048, ht⟩ (0 : Fin 2) * 2048 + 2048
    rw [e30]; show (i 0).val / 2048 * 2048 ≤ (i 0).val ∧ (i 0).val < (i 0).val / 2048 * 2048 + 2048; omega
  | ⟨1, _⟩ =>
    show win0_3.index ⟨(i 0).val / 2048, ht⟩ (1 : Fin 2) * 512 ≤ (i 1).val ∧ (i 1).val < win0_3.index ⟨(i 0).val / 2048, ht⟩ (1 : Fin 2) * 512 + 512
    rw [e31]; omega

end Cert.KernelIdeal.Blocks

end
-- ==== Proof.RegionValue.lean ====
/-
  The kernel's result array after its region has run, as one function of the three arrays the region reads.

  Grid step `t` of 150 reads rows 2048·t … 2048·t + 2047 of the padded rows, the whole padded weight and the whole
  padded bias, and writes the same rows of the result. Every row of the result lies in exactly one step's block, so the
  whole result is, entry by entry, the sum over the features of tanh of the padded row's entry times the transposed
  weight's entry, plus the padded bias.
-/
import proofs.«151189_j14594298872273_1_alg».proof.Proof.Gen.KernelIdeal.Frame
import Idealize.ShloMosaic.Lib.StableHlo.Run
import Idealize.ShloMosaic.Lib.ValueIdx
import Idealize.ShloMosaic.Lib.Pipeline.Value
import proofs.«151189_j14594298872273_1_alg».proof.Proof.KernelBody
import proofs.«151189_j14594298872273_1_alg».proof.Proof.RegionBlocks
set_option maxRecDepth 16384

noncomputable section

namespace Cert.KernelIdeal.Region

open Cert.KernelIdeal Cert.KernelIdeal.Gen
open Idealize.ShloMosaic Idealize.ShloMosaic.TcCoe Idealize.ShloMosaic.ValueIdx Idealize.ShloMosaic.StableHlo
open Idealize.SL Idealize.SL.Sem
open scoped BigOperators
open Cert.KernelIdeal.Blocks

variable (m : (ℓ : Loc nD τ sig) → Buf (Elt Ideal) ℓ)

/-- Entry (r, q) of the padded result from the padded rows `X`, the transposed padded weight `Wt` and the padded bias row `B`. -/
def paddedLogits (X : S307200x512.Idx → Elt Ideal .f32) (Wt : S512x512.Idx → Elt Ideal .bf16) (B : S1x512.Idx → Elt Ideal .f32) :
    S307200x512.Idx → Elt Ideal .f32 :=
  fun i => (∑ k : Fin 512, Ideal.tanh (X (ix2 (i 0) k)) * Wt (ix2 k (i 1))) + B (ix2 0 (i 1))

/-- The three blocks a step reads, at their literal shapes. -/
abbrev rowsBlk (c : Dev nD) (t : Fin cfg0.N) : Vec Ideal S2048x512 .f32 := iblk m c 0 t
abbrev weightBlk (c : Dev nD) (t : Fin cfg0.N) : Vec Ideal S512x512 .bf16 := iblk m c 1 t
abbrev biasBlk (c : Dev nD) (t : Fin cfg0.N) : Vec Ideal S1x512 .f32 := iblk m c 2 t

/-- A step's stored entry (p, q) is the padded logit at `i` once the step's blocks are the arrays' entries in `i`'s row,
    in `i`'s column of the weight and at `i`'s class of the bias. -/
theorem block_entry (X : S307200x512.Idx → Elt Ideal .f32) (Wt : S512x512.Idx → Elt Ideal .bf16) (B : S1x512.Idx → Elt Ideal .f32)
    (xb : Vec Ideal S2048x512 .f32) (wb : Vec Ideal S512x512 .bf16) (bb : Vec Ideal S1x512 .f32)
    (p : Fin 2048) (q : Fin 512) (i : S307200x512.Idx)
    (hx : ∀ k : Fin 512, xb (ix2 p k) = X (ix2 (i 0) k))
    (hw : ∀ k : Fin 512, wb (ix2 k q) = Wt (ix2 k (i 1)))
    (hb : bb (ix2 0 q) = B (ix2 0 (i 1))) :
    k0_pay1 (F := Ideal) xb wb bb (ix2 p q) = paddedLogits X Wt B i := by
  rw [Body.payload_apply]
  unfold paddedLogits
  rw [hb]
  exact congrArg (· + _) (Finset.sum_congr rfl fun k _ => by rw [hx k, hw k])

/-- What step `t` writes back is block `t` of the padded logits of the arrays the region found. -/
theorem flushed_eq (c : Dev nD) (t : Fin cfg0.N) :
    (dats m 0 c).flushed 3 t = ((cfg0.win 3).blk t).view.read (Elt Ideal)
      (paddedLogits (V m c main_v38) (V m c main_v36) (V m c main_v37)) := by
  show (cfg0.win 3).cut (grid0.coords t) ((dats m 0 c).after 3 t) = _
  rw [after0_3]
  unfold out0_3
  rw [View.canon_unit_zero origin]
  simp only [View.ld_unit_zero (S := S2048x512) origin, View.ld_unit_zero (S := S512x512) origin, View.ld_unit_zero (S := S1x512) origin]
  obtain ⟨e00, e01, e10, e11, e20, e21, e30, e31⟩ := block_indices t
  funext j
  have hj : (j : S2048x512.Idx) = ix2 (j 0 : Fin 2048) (j 1 : Fin 512) := eq_ix2 (n0 := 2048) (n1 := 512) j
  refine (congrArg (k0_pay1 (F := Ideal) (rowsBlk m c t) (weightBlk m c t) (biasBlk m c t)) hj).trans ?_
  refine block_entry (V m c main_v38) (V m c main_v36) (V m c main_v37) (rowsBlk m c t) (weightBlk m c t) (biasBlk m c t) (j 0) (j 1)
    (((cfg0.win 3).blk t).view.emb j) (fun k => ?_) (fun k => ?_) ?_
  · show V m c main_v38 (((cfg0.win 0).blk t).view.emb (ix2 (j 0) k : S2048x512.Idx)) = _
    refine congrArg (V m c main_v38) (funext fun a => Fin.ext ?_)
    match a with
    | ⟨0, _⟩ => show win0_0.index t (0 : Fin 2) * 2048 + 1 * (j 0).val = win0_3.index t (0 : Fin 2) * 2048 + 1 * (j 0).val; omega
    | ⟨1, _⟩ => show win0_0.index t (1 : Fin 2) * 512 + 1 * k.val = k.val; omega
  · show V m c main_v36 (((cfg0.win 1).blk t).view.emb (ix2 k (j 1) : S512x512.Idx)) = _
    refine congrArg (V m c main_v36) (funext fun a => Fin.ext ?_)
    match a with
    | ⟨0, _⟩ => show win0_1.index t (0 : Fin 2) * 512 + 1 * k.val = k.val; omega
    | ⟨1, _⟩ => show win0_1.index t (1 : Fin 2) * 512 + 1 * (j 1).val = win0_3.index t (1 : Fin 2) * 512 + 1 * (j 1).val; omega
  · show V m c main_v37 (((cfg0.win 2).blk t).view.emb (ix2 0 (j 1) : S1x512.Idx)) = _
    refine congrArg (V m c main_v37) (funext fun a => Fin.ext ?_)
    match a with
    | ⟨0, _⟩ => show win0_2.index t (0 : Fin 2) * 1 + 1 * 0 = 0; omega
    | ⟨1, _⟩ => show win0_2.index t (1 : Fin 2) * 512 + 1 * (j 1).val = win0_3.index t (1 : Fin 2) * 512 + 1 * (j 1).val; omega

/-- The result array after the region: the padded logits of the arrays the region found. -/
theorem result_array (c : Dev nD) :
    (dats m 0 c).arrAt 3 cfg0.N = paddedLogits (V m c main_v38) (V m c main_v36) (V m c main_v37) :=
  (dats m 0 c).arrAt_eq_of_cover 3 _ (fun t _ => flushed_eq m c t) covered

end Cert.KernelIdeal.Region

end
-- ==== Proof.LibScatterSet.lean ====
/-
  Reading a scatter whose body returns the update ("set") at one index of the result.

  `Host.scatter d f x idx upd` is the left fold, over the update positions in row-major order,
  of the step that, for an update position landing inside the operand at `i`, replaces the entry
  at `i` by `f (r i) (upd _)` and leaves every other entry alone (a position landing outside
  is dropped). With `f = fun _ b => b` the step writes the update's element itself. Looking at
  one result index `i`:

  * if no update position lands at `i`, no step of the fold touches entry `i`, so the result
    there is the operand's element `x i`;
  * if exactly one update position `j` lands at `i`, the steps before `j`'s leave entry `i`
    alone, `j`'s step sets it to `upd j`, and the steps after leave it alone again (every
    position is met once: the list of positions has no repeats), so the result there is `upd j`.

  Both are instances of two facts about a left fold `l.foldl g r` of functions read at a point
  `i`, stated first for an arbitrary step `g` and an arbitrary list `l`.
-/
import Idealize.ShloMosaic.PureOps.ShapeOps
import Mathlib.Data.List.FinRange
import Mathlib.Data.List.Nodup

namespace Cert.Lib.ScatterSet

open Idealize.ShloMosaic

/-! ## Left folds of point updates, read at one point -/

section Fold
variable {ι κ β : Type}

/-- If no step over `l` changes the value at `i`, the fold keeps the value the start has at `i`. -/
theorem foldl_apply_of_forall_keep (g : (ι → β) → κ → (ι → β)) (i : ι) (l : List κ) (r : ι → β)
    (hkeep : ∀ n ∈ l, ∀ r', g r' n i = r' i) : l.foldl g r i = r i := by
  induction l generalizing r with
  | nil => rfl
  | cons a l ih =>
    rw [List.foldl_cons, ih (g r a) (fun n hn => hkeep n (List.mem_cons_of_mem a hn))]
    exact hkeep a (List.mem_cons_self ..) r

/-- If `l` has no repeats, the step at `n₀ ∈ l` sets the value at `i` to `v` whatever it was, and
    no other step over `l` changes the value at `i`, the fold ends with `v` at `i`. -/
theorem foldl_apply_of_unique_set (g : (ι → β) → κ → (ι → β)) (i : ι) (v : β) (n₀ : κ) (l : List κ)
    (r : ι → β) (hnd : l.Nodup) (hmem : n₀ ∈ l) (hset : ∀ r', g r' n₀ i = v)
    (hkeep : ∀ n ∈ l, n ≠ n₀ → ∀ r', g r' n i = r' i) : l.foldl g r i = v := by
  induction l generalizing r with
  | nil => exact absurd hmem (List.not_mem_nil)
  | cons a l ih =>
    rw [List.nodup_cons] at hnd
    rw [List.foldl_cons]
    by_cases ha : a = n₀
    · -- the head is the setting step; the tail does not hold `n₀` again, so it keeps the value
      subst ha
      rw [foldl_apply_of_forall_keep g i l (g r a) (fun n hn =>
        hkeep n (List.mem_cons_of_mem a hn) (fun e => hnd.1 (e ▸ hn)))]
      exact hset r
    · -- the head is another step; the setting step is in the tail
      have hmem' : n₀ ∈ l := by
        rcases List.mem_cons.1 hmem with e | h
        · exact absurd e.symm ha
        · exact h
      exact ih (g r a) hnd.2 hmem' (fun n hn => hkeep n (List.mem_cons_of_mem a hn))

end Fold

/-! ## The scatter's step, read at one index -/

section Scatter
variable {α : Type} {w : Nat} {s si u : Shape}

/-- The step of a scatter whose body returns the update: the entry at the index the update
    position `n` lands at becomes the update's element there. -/
def step (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

/-- The scatter is the fold of that step over the update positions. -/
theorem scatter_eq_foldl (d : ScatterDims s si u) (x : s.Idx → α) (idx : IVec si w) (upd : u.Idx → α) :
    Host.scatter d (fun _ b => b) x idx upd = (List.finRange u.numel).foldl (step d idx upd) x := rfl

/-- A position that lands at `i` sets the entry at `i` to its update element. -/
theorem step_apply_of_hit (d : ScatterDims s si u) (idx : IVec si w) (upd : u.Idx → α) (r : s.Idx → α)
    (n : Fin u.numel) (i : s.Idx) (h : d.resultIdx? (u.rowMajor.symm n) idx = some i) :
    step d idx upd r n i = upd (u.rowMajor.symm n) := by
  unfold step
  rw [h]
  exact if_pos rfl

/-- A position that does not land at `i` (it lands elsewhere or is dropped) leaves the entry at `i`. -/
theorem step_apply_of_miss (d : ScatterDims s si u) (idx : IVec si w) (upd : u.Idx → α) (r : s.Idx → α)
    (n : Fin u.numel) (i : s.Idx) (h : d.resultIdx? (u.rowMajor.symm n) idx ≠ some i) :
    step d idx upd r n i = r i := by
  unfold step
  cases h' : d.resultIdx? (u.rowMajor.symm n) idx with
  | none => rfl
  | some i' =>
    have hne : i ≠ i' := fun e => h (by rw [h', e])
    exact if_neg hne

/-! ## The two readings -/

/-- At an index `i` that exactly one update position `j` lands at, the scatter holds `upd j`. -/
theorem scatter_set_of_hit (d : ScatterDims s si u) (x : s.Idx → α) (idx : IVec si w) (upd : u.Idx → α)
    (j : u.Idx) (i : s.Idx) (hj : d.resultIdx? j idx = some i)
    (huniq : ∀ j', d.resultIdx? j' idx = some i → j' = j) :
    Host.scatter d (fun _ b => b) x idx upd i = upd j := by
  rw [scatter_eq_foldl]
  have hsymm : u.rowMajor.symm (u.rowMajor j) = j := u.rowMajor.symm_apply_apply j
  refine foldl_apply_of_unique_set (step d idx upd) i (upd j) (u.rowMajor j) _ x
    (List.nodup_finRange _) (List.mem_finRange _) ?_ ?_
  · intro r'
    rw [step_apply_of_hit d idx upd r' (u.rowMajor j) i (by rw [hsymm]; exact hj), hsymm]
  · intro n _ hn r'
    refine step_apply_of_miss d idx upd r' n i (fun h => hn ?_)
    have := huniq _ h
    rw [← this, Equiv.apply_symm_apply]

/-- At an index `i` that no update position lands at, the scatter holds the operand's `x i`. -/
theorem scatter_set_of_miss (d : ScatterDims s si u) (x : s.Idx → α) (idx : IVec si w) (upd : u.Idx → α)
    (i : s.Idx) (hmiss : ∀ j, d.resultIdx? j idx ≠ some i) :
    Host.scatter d (fun _ b => b) x idx upd i = x i := by
  rw [scatter_eq_foldl]
  exact foldl_apply_of_forall_keep (step d idx upd) i _ x
    (fun n _ r' => step_apply_of_miss d idx upd r' n i (hmiss _))

end Scatter

/-! ## Where an update position lands

The result index is start plus window coordinate on every axis, kept when it is inside the
operand on every axis. So an update position lands at `i` exactly when start plus window
coordinate IS `i`'s coordinate on every axis (then it is inside); and when every start index is
the word `0`, exactly when the window coordinates are `i`'s coordinates. -/

section ResultIdx
variable {w : Nat} {s si u : Shape}

/-- An update position lands at `i` iff, on every axis, start plus window coordinate is `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hc
      have ha := congrFun (Option.some.inj h) a
      have hc' := (hc a).1
      rw [← ha]
      exact (Int.toNat_of_nonneg hc').symm
    · exact absurd h (by simp)
  · intro h
    have hc : ∀ a, 0 ≤ d.start j idx a + (d.window j a : Int) ∧ d.start j idx a + (d.window j a : Int) < s.size a := by
      intro a
      rw [h a]
      exact ⟨Int.natCast_nonneg _, by exact_mod_cast (i a).isLt⟩
    rw [dif_pos hc]
    congr 1
    funext a
    apply Fin.ext
    show (d.start j idx a + (d.window j a : Int)).toNat = (i a).val
    rw [h a, Int.toNat_natCast]

/-- When every scatter index is the word `0`, every window starts at `0` on every axis (the
    word `0` read signed is `0`; an axis the map does not name starts at `0` anyway). -/
theorem start_eq_zero (d : ScatterDims s si u) (j : u.Idx) (idx : IVec si w) (hidx : ∀ k, idx k = 0#w)
    (a : Fin s.rank) : d.start j idx a = 0 := by
  unfold ScatterDims.start
  split
  · rw [hidx]; exact BitVec.toInt_zero
  · rfl

/-- When every scatter index is the word `0`, an update position lands at `i` iff its window
    coordinates are `i`'s coordinates. -/
theorem resultIdx?_eq_some_iff_of_zero (d : ScatterDims s si u) (j : u.Idx) (idx : IVec si w)
    (hidx : ∀ k, idx k = 0#w) (i : s.Idx) :
    d.resultIdx? j idx = some i ↔ ∀ a, d.window j a = (i a).val := by
  rw [resultIdx?_eq_some_iff]
  constructor
  · intro h a
    have := h a
    rw [start_eq_zero d j idx hidx a, Int.zero_add] at this
    exact_mod_cast this
  · intro h a
    rw [start_eq_zero d j idx hidx a, Int.zero_add, h a]

end ResultIdx

end Cert.Lib.ScatterSet
-- ==== Proof.PaddedParams.lean ====
/-
  The two padded parameters: a `500 × 512` weight written into a `512 × 512` array of zeros and
  a length-`500` bias written into a length-`512` array of zeros, each by a scatter whose body
  returns the update, with ONE start index, the word `0`.

  Both scatters take every axis of the update as a window axis, insert none, and name operand
  axis `0` in their start-index map. So the window coordinate of update position `j` on operand
  axis `a` is `j`'s own coordinate on axis `a`, and (every start being `0`) `j` lands at the
  operand index with the same coordinates. Hence an operand index `i` whose row `i 0` is below
  `500` is met by exactly one update position, the one with `i`'s coordinates, and holds that
  update element; an index whose row is `500` or more is met by none (an update's row is below
  `500`) and keeps the operand's element.
-/
import proofs.«151189_j14594298872273_1_alg».proof.Proof.Gen.KernelIdeal
import proofs.«151189_j14594298872273_1_alg».proof.Proof.LibScatterSet
import Idealize.ShloMosaic.Lib.ValueIdx

namespace Cert.KernelIdeal.Padded

open Idealize.ShloMosaic Idealize.ShloMosaic.ValueIdx Cert.KernelIdeal
open Cert.Lib.ScatterSet

variable [Cert.KernelIdeal.Facts]

/-! ## The bias: `zeros(512).at[:500].set(b)` -/

/-- With every start index `0`, update position `j` of the bias scatter lands at `i'` iff the two
    have the same coordinate (the window coordinate on the one axis is `j`'s coordinate). -/
theorem bias_lands_iff (idx : IVec S1 32) (hidx : ∀ k, idx k = 0#32) (j : S500.Idx) (i' : S512.Idx) :
    scatter_S512_S1_S500_0_n_0_0.resultIdx? j idx = some i' ↔ (j 0).val = (i' 0).val := by
  rw [resultIdx?_eq_some_iff_of_zero _ j idx hidx i']
  constructor
  · intro h
    exact h 0
  · intro h a
    match a with
    | ⟨0, _⟩ => exact h

/-- The padded bias at an index: the bias's entry below `500`, the operand's entry from `500` on. -/
theorem bias_entries {α : Type} (z : S512.Idx → α) (idx : IVec S1 32) (hidx : ∀ k, idx k = 0#32)
    (b : S500.Idx → α) (i : S512.Idx) :
    Host.scatter scatter_S512_S1_S500_0_n_0_0 (fun _ b => b) z idx b i
      = if h : (i 0).val < 500 then b (ix1 ⟨(i 0).val, h⟩) else z i := by
  by_cases h : (i 0).val < 500
  · rw [dif_pos h]
    refine scatter_set_of_hit _ z idx b (ix1 ⟨(i 0).val, h⟩) i ((bias_lands_iff idx hidx _ _).2 rfl) ?_
    intro j' hj'
    have h0 : (j' 0).val = (i 0).val := (bias_lands_iff idx hidx j' i).1 hj'
    rw [eq_ix1 j']
    congr 1
    exact Fin.ext h0
  · rw [dif_neg h]
    refine scatter_set_of_miss _ z idx b i ?_
    intro j hj
    have h0 : (j 0).val = (i 0).val := (bias_lands_iff idx hidx j i).1 hj
    have hlt : (j 0).val < 500 := (j 0).isLt
    omega

/-! ## The weight: `zeros((512, 512)).at[:500, :].set(W)` -/

/-- With every start index `0`, update position `j` of the weight scatter lands at `i'` iff the two
    have the same coordinates (the window coordinate on each axis is `j`'s coordinate there). -/
theorem weight_lands_iff (idx : IVec S1 32) (hidx : ∀ k, idx k = 0#32) (j : S500x512.Idx) (i' : S512x512.Idx) :
    scatter_S512x512_S1_S500x512_01_n_0_0.resultIdx? j idx = some i'
      ↔ (j 0).val = (i' 0).val ∧ (j 1).val = (i' 1).val := by
  rw [resultIdx?_eq_some_iff_of_zero _ j idx hidx i']
  constructor
  · intro h
    exact ⟨h 0, h 1⟩
  · intro h a
    match a with
    | ⟨0, _⟩ => exact h.1
    | ⟨1, _⟩ => exact h.2

/-- The padded weight at an index: the weight's entry on rows below `500`, the operand's entry on
    rows from `500` on. -/
theorem weight_rows {α : Type} (z : S512x512.Idx → α) (idx : IVec S1 32) (hidx : ∀ k, idx k = 0#32)
    (W : S500x512.Idx → α) (i : S512x512.Idx) :
    Host.scatter scatter_S512x512_S1_S500x512_01_n_0_0 (fun _ b => b) z idx W i
      = if h : (i 0).val < 500 then W (ix2 ⟨(i 0).val, h⟩ ⟨(i 1).val, (i 1).isLt⟩) else z i := by
  by_cases h : (i 0).val < 500
  · rw [dif_pos h]
    refine scatter_set_of_hit _ z idx W (ix2 ⟨(i 0).val, h⟩ ⟨(i 1).val, (i 1).isLt⟩) i
      ((weight_lands_iff idx hidx _ _).2 ⟨rfl, rfl⟩) ?_
    intro j' hj'
    obtain ⟨h0, h1⟩ := (weight_lands_iff idx hidx j' i).1 hj'
    rw [eq_ix2 j']
    congr 1
    · exact Fin.ext h0
    · exact Fin.ext h1
  · rw [dif_neg h]
    refine scatter_set_of_miss _ z idx W i ?_
    intro j hj
    have h0 : (j 0).val = (i 0).val := ((weight_lands_iff idx hidx j i).1 hj).1
    have hlt : (j 0).val < 500 := idx2_lt0 j
    omega

end Cert.KernelIdeal.Padded
-- ==== Proof.Logits.lean ====
/-
  The function both programs compute, over the extended reals.

  From gathered rows `x` (one row of 512 features per valid (batch, time, label) triple, 306874 of them), a weight
  matrix `W` (500 × 512) and a bias `b` (500 entries), the logit of row `p` and class `q` is

      ∑ k < 512, tanh (x p k) · W q k  +  b q.

  The kernel pads the rows to 307200 and the classes to 512 with zeros, multiplies block by block and cuts the padding
  off again; the reference multiplies the whole arrays. Neither the padding nor the blocking changes an entry that is
  kept, and no law of arithmetic beyond reading the same sum is needed.
-/
import Idealize.ShloMosaic.PureOps.Ideal
import Idealize.ShloMosaic.Lib.ValueIdx

noncomputable section

open scoped BigOperators

namespace Cert.Logits

open Idealize.ShloMosaic Idealize.ShloMosaic.ValueIdx

/-- The logit of row `p` and class `q`. -/
def logitAt (x : (⟨2, ![306874, 512]⟩ : Shape).Idx → EReal) (W : (⟨2, ![500, 512]⟩ : Shape).Idx → EReal)
    (b : (⟨1, ![500]⟩ : Shape).Idx → EReal) (p : Fin 306874) (q : Fin 500) : EReal :=
  (∑ k : Fin 512, Ideal.tanh (x (ix2 p k)) * W (ix2 q k)) + b (ix1 q)

/-- All logits, as an array of 306874 × 500 entries. -/
def logits (x : (⟨2, ![306874, 512]⟩ : Shape).Idx → EReal) (W : (⟨2, ![500, 512]⟩ : Shape).Idx → EReal)
    (b : (⟨1, ![500]⟩ : Shape).Idx → EReal) : (⟨2, ![306874, 500]⟩ : Shape).Idx → EReal :=
  fun i => logitAt x W b (i 0) (i 1)

end Cert.Logits

end
-- ==== Proof.KernelRun.lean ====
/-
  The kernel's run, read: its result is the logits of the rows its host part gathers.

  Of the padded result the program keeps rows below 306874 and classes below 500. There a padded row is a gathered
  row, the transposed padded weight at (feature k, class q) is the weight at (q, k), and the padded bias at q is the
  bias at q; so a kept entry is the logit of its row and class.
-/
import proofs.«151189_j14594298872273_1_alg».proof.Proof.Gen.KernelIdeal.Frame
import Idealize.ShloMosaic.Lib.StableHlo.Run
import Idealize.ShloMosaic.Lib.ValueIdx
import Idealize.ShloMosaic.Lib.Pipeline.Value
import proofs.«151189_j14594298872273_1_alg».proof.Proof.Entry
import proofs.«151189_j14594298872273_1_alg».proof.Proof.RegionValue
import proofs.«151189_j14594298872273_1_alg».proof.Proof.PaddedParams
import proofs.«151189_j14594298872273_1_alg».proof.Proof.Logits
import Idealize.ShloMosaic.Lib.KernelVsHost
set_option maxRecDepth 16384

noncomputable section

namespace Cert.KernelIdeal.Run

open Cert.KernelIdeal Cert.KernelIdeal.Gen
open Idealize.ShloMosaic Idealize.ShloMosaic.TcCoe Idealize.ShloMosaic.ValueIdx Idealize.ShloMosaic.StableHlo
open Idealize.SL Idealize.SL.Sem
open scoped BigOperators
open Cert.Logits

variable (m : (ℓ : Loc nD τ sig) → Buf (Elt Ideal) ℓ)

/-- A padded row below 306874 is the gathered row. -/
theorem rows_kept (c : Dev nD) (r : Fin 306874) (k : Fin 512) :
    V m c main_v38 (ix2 (⟨r.val, by omega⟩ : Fin 307200) k) = Entry.rows m c (ix2 r k) :=
  (congrFun (Entry.entry_rows m c) _).trans
    (pad_apply_of_inside ![0, 0] ![326, 0] ![0, 0] (Entry.rows m c) _ pads_S306874x512_S307200x512_03260_000 h_S_ _ (ix2 r k)
      (fun a => by
        match a with
        | ⟨0, _⟩ => show r.val = 0 + r.val * (0 + 1); omega
        | ⟨1, _⟩ => show k.val = 0 + k.val * (0 + 1); omega))

/-- The zero matrix with a weight `W` written over its first 500 rows, transposed and narrowed, read at feature `k` and a
    class `q` below 500: the weight at (q, k). -/
theorem padded_weight_apply (W : S500x512.Idx → Elt Ideal .f32) (k : Fin 512) (q : Fin 500) :
    (truncf .bf16 (transpose S512x512 [1, 0]
        (Host.scatter scatter_S512x512_S1_S500x512_01_n_0_0 (fun _ b => b)
          (broadcastInDim S512x512 ![] bcast_S_S512x512 (constant (F := Ideal) S_ .f32 0x00000000#32))
          (broadcastInDim S1 ![] bcast_S_S1 (constantI S_ 32 0#32)) W)
        transposes_S512x512_S512x512_1_0) bitsLt_bf16_f32 : FVec Ideal S512x512 .bf16) (ix2 k (⟨q.val, by omega⟩ : Fin 512))
      = W (ix2 q k) := by
  refine (truncf_apply (ψ := .bf16) _ bitsLt_bf16_f32 _).trans ?_
  refine (transpose_apply [1, 0] _ transposes_S512x512_S512x512_1_0 (ix2 k (⟨q.val, by omega⟩ : Fin 512))
    (ix2 (⟨q.val, by omega⟩ : Fin 512) k) (fun b => by
      match b with
      | ⟨0, _⟩ => rfl
      | ⟨1, _⟩ => rfl)).trans ?_
  exact (Padded.weight_rows _ _ (fun _ => rfl) W _).trans (dif_pos q.isLt)

/-- The zero vector with a bias `b` written over its first 500 entries, as one row, read at a class `q` below 500: the
    bias at `q`. -/
theorem padded_bias_apply (b : S500.Idx → Elt Ideal .f32) (q : Fin 500) :
    shapeCast S1x512
        (Host.scatter scatter_S512_S1_S500_0_n_0_0 (fun _ b => b)
          (broadcastInDim S512 ![] bcast_S_S512 (constant (F := Ideal) S_ .f32 0x00000000#32))
          (broadcastInDim S1 ![] bcast_S_S1 (constantI S_ 32 0#32)) b)
        shapeCasts_S512_S1x512 (ix2 (0 : Fin 1) (⟨q.val, by omega⟩ : Fin 512))
      = b (ix1 q) := by
  refine (shapeCast_apply _ shapeCasts_S512_S1x512 (ix2 (0 : Fin 1) (⟨q.val, by omega⟩ : Fin 512)) (ix1 (⟨q.val, by omega⟩ : Fin 512)) ?_).trans ?_
  · rw [Shape.rowMajor_val_one, Shape.rowMajor_val_two]
    show q.val = 0 * 512 + q.val
    omega
  · exact (Padded.bias_entries _ _ (fun _ => rfl) b _).trans (dif_pos q.isLt)

/-- The transposed padded weight at feature `k` and a class `q` below 500 is the weight at (q, k). -/
theorem weight_kept (c : Dev nD) (k : Fin 512) (q : Fin 500) :
    V m c main_v36 (ix2 k (⟨q.val, by omega⟩ : Fin 512)) = m ((c.tc : Thread nD τ).loc main_arg2) (ix2 q k) :=
  (congrFun (Entry.entry_weight m c) _).trans (padded_weight_apply _ k q)

/-- The padded bias row at a class `q` below 500 is the bias at `q`. -/
theorem bias_kept (c : Dev nD) (q : Fin 500) :
    V m c main_v37 (ix2 (0 : Fin 1) (⟨q.val, by omega⟩ : Fin 512)) = m ((c.tc : Thread nD τ).loc main_arg3) (ix1 q) :=
  (congrFun (Entry.entry_bias m c) _).trans (padded_bias_apply _ q)

/-- The program's result: the padded result cut back to 306874 rows and 500 classes is the logits of the gathered rows. -/
theorem result_eq (c : Dev nD) :
    Pipeline.afterTail₀ cfgs (dats m) 0 (V0 m) [hostOps1] c main_v40
      = logits (Entry.rows m c) (m ((c.tc : Thread nD τ).loc main_arg2)) (m ((c.tc : Thread nD τ).loc main_arg3)) := by
  unfold Pipeline.afterTail₀
  show StableHlo.after hostOps1 _ (Proc.devRef .tc main_v40) = _
  after_results
  have hA : Pipeline.withArrays (cfgs 0).spec c (V0 m c) (fun w => (dats m 0 c).arrAt w (cfgs 0).N) (Proc.devRef .tc main_v39)
      = Region.paddedLogits (V m c main_v38) (V m c main_v36) (V m c main_v37) :=
    (Pipeline.withArrays_arr spec0 launch0.win.arr_inj c _ _ 3).trans (Region.result_array m c)
  rw [hA]
  funext i
  have h0 : (i 0).val < 306874 := idx2_lt0 i
  have h1 : (i 1).val < 500 := idx2_lt1 i
  refine (extractStridedSlice_apply ![0, 0] _ slices_S307200x512_S306874x500_0_0 i
    (ix2 (⟨(i 0).val, by omega⟩ : Fin 307200) (⟨(i 1).val, by omega⟩ : Fin 512)) (fun a => by
      match a with
      | ⟨0, _⟩ => show (i 0).val = 0 + (i 0).val; omega
      | ⟨1, _⟩ => show (i 1).val = 0 + (i 1).val; omega)).trans ?_
  unfold Region.paddedLogits logits logitAt
  refine congrArg₂ (· + ·) (Finset.sum_congr rfl fun k _ => ?_) (bias_kept m c (i 1))
  exact congrArg₂ (· * ·) (congrArg Ideal.tanh (rows_kept m c (i 0) k)) (weight_kept m c k (i 1))

/-- The kernel's run at the ideal values: every weakly fair execution ends with the result at the logits of the gathered
    rows and with the arguments as they were. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v40)
        = logits (Entry.rows m c) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v40 (Pipeline.mem_restRefs_of main_v40 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Run

end
-- ==== Proof.SharedRows.lean ====
/-
  Both programs gather the same rows.

  The kernel's host part and the reference begin with the same operations on the same arguments: wrap a negative
  index by the axis length, pair the batch index with the time (or label) index, gather the encoder's and the decoder's
  rows at the pairs and add them. Operation by operation the two texts coincide, so the values do.
-/
import proofs.«151189_j14594298872273_1_alg».proof.Proof.Gen.KernelIdeal.Frame
import Idealize.ShloMosaic.Lib.StableHlo.Run
import Idealize.ShloMosaic.Lib.ValueIdx
import Idealize.ShloMosaic.Lib.Pipeline.Value
import proofs.«151189_j14594298872273_1_alg».proof.Proof.Entry
import proofs.«151189_j14594298872273_1_alg».proof.Proof.Gen.ReferenceIdeal.Read
set_option maxRecDepth 16384

noncomputable section

namespace Cert.KernelIdeal.SharedRows

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

set_option maxHeartbeats 2000000 in
/-- The rows the kernel's host part gathers are the reference's gathered rows of the same arguments. -/
theorem rows_eq (c : Dev nD) :
    Entry.rows m c
      = Cert.ReferenceIdeal.Read.val_main_v28 (F := Ideal) (m ((c.tc : Thread nD τ).loc main_arg0)) (m ((c.tc : Thread nD τ).loc main_arg1))
          (m ((c.tc : Thread nD τ).loc main_arg4)) (m ((c.tc : Thread nD τ).loc main_arg5)) (m ((c.tc : Thread nD τ).loc main_arg6)) := by
  unfold Entry.rows
  after_results_simp <;> rfl

end Cert.KernelIdeal.SharedRows

end
-- ==== Proof.ReferenceLogits.lean ====
/-
  The reference's result is the logits of the rows it gathers.

  Read index by index, the reference's last value is a sum over the 512 features of the hyperbolic tangent of a gathered
  row's entry times the weight's entry for the class, plus the class's bias: the transposed weight read at (k, q) is the
  weight at (q, k), and the bias broadcast over the rows is the bias at the class.
-/
import proofs.«151189_j14594298872273_1_alg».proof.Proof.Gen.ReferenceIdeal.Read
import proofs.«151189_j14594298872273_1_alg».proof.Proof.Logits

noncomputable section

open scoped BigOperators

namespace Cert.ReferenceIdeal.RefLogits

open Cert.ReferenceIdeal Cert.ReferenceIdeal.Read
open Idealize.ShloMosaic Idealize.ShloMosaic.ValueIdx Cert.Logits

/-- The left operand's index of the product at result index `i` and feature `k`: row `i 0`, feature `k`. -/
theorem lidx_eq (i : S306874x500.Idx) (k : Fin 512) : lidx_main_v31 i k = ix2 (i 0) k :=
  funext fun a => Fin.ext (by match a with | ⟨0, _⟩ => rfl | ⟨1, _⟩ => rfl)

/-- The weight's index behind the transposed weight at (feature `k`, class `i 1`): class `i 1`, feature `k`. -/
theorem widx_eq (i : S306874x500.Idx) (k : Fin 512) : idx_main_v30 (ridx_main_v31 i k) = ix2 (i 1) k :=
  funext fun a => Fin.ext (by match a with | ⟨0, _⟩ => rfl | ⟨1, _⟩ => rfl)

/-- The bias's index behind the broadcast bias at result index `i`: class `i 1`. -/
theorem bidx_eq (i : S306874x500.Idx) : idx_main_v32 (idx_main_v33 i) = ix1 (i 1) :=
  funext fun a => Fin.ext (by match a with | ⟨0, _⟩ => rfl)

/-- The reference's result, as a function of its arguments, is the logits of its gathered rows. -/
theorem reference_eq (x0 : (⟨S16x512x512, .f32⟩ : BufTy).Contents (Elt Ideal)) (x1 : (⟨S16x64x512, .f32⟩ : BufTy).Contents (Elt Ideal))
    (x2 : (⟨S500x512, .f32⟩ : BufTy).Contents (Elt Ideal)) (x3 : (⟨S500, .f32⟩ : BufTy).Contents (Elt Ideal))
    (x4 x5 x6 : (⟨S306874, .i32⟩ : BufTy).Contents (Elt Ideal)) :
    val_main_v34 (F := Ideal) x0 x1 x2 x3 x4 x5 x6 = logits (val_main_v28 (F := Ideal) x0 x1 x4 x5 x6) x2 x3 := by
  funext i
  rw [val_main_v34_apply, val_main_v31_apply, val_main_v33_apply, val_main_v32_apply]
  simp only [val_main_v29_apply, val_main_v30_apply, lidx_eq, widx_eq, bidx_eq]
  rfl

end Cert.ReferenceIdeal.RefLogits

end
-- ==== Proof.lean ====
/-
  A tanh-and-linear layer over ragged rows: the blocked kernel against the whole-array reference.

  Both programs gather, for each of 306874 valid (batch, time, label) triples, the encoder's row plus the decoder's row,
  apply the hyperbolic tangent and a linear layer with 500 classes. The reference multiplies the whole arrays. The kernel
  pads the rows to 150 blocks of 2048 and the classes to 512 with zeros, lets each grid step multiply one block of rows
  by the whole padded weight (after narrowing the activations and the weight to bf16, which is the identity on the
  extended reals) and add the padded bias, and finally drops the padding.

  At the ideal values an entry the kernel keeps is the sum over the 512 features of tanh of the gathered row's entry
  times the weight's entry, plus the bias: the padding rows and classes never reach a kept entry, and the blocks tile
  the rows. The reference's entry is the same sum. No law of arithmetic beyond reading the same finite sum is used, so
  the finiteness of the inputs is not needed.

  The frames of the two kernel programs are the generated ones; the reference's frame is its generated run with the
  result dropped; the idealization rewrote nothing.
-/
import proofs.«151189_j14594298872273_1_alg».proof.Defs
import proofs.«151189_j14594298872273_1_alg».proof.Proof.Gen.Kernel
import proofs.«151189_j14594298872273_1_alg».proof.Proof.Gen.Kernel.Skeleton
import proofs.«151189_j14594298872273_1_alg».proof.Proof.Gen.Kernel.Launch
import proofs.«151189_j14594298872273_1_alg».proof.Proof.Gen.Kernel.Points
import proofs.«151189_j14594298872273_1_alg».proof.Proof.Gen.Kernel.Frame
import proofs.«151189_j14594298872273_1_alg».proof.Proof.Gen.KernelIdeal
import proofs.«151189_j14594298872273_1_alg».proof.Proof.Gen.KernelIdeal.Skeleton
import proofs.«151189_j14594298872273_1_alg».proof.Proof.Gen.KernelIdeal.Launch
import proofs.«151189_j14594298872273_1_alg».proof.Proof.Gen.KernelIdeal.Points
import proofs.«151189_j14594298872273_1_alg».proof.Proof.Gen.KernelIdeal.Frame
import proofs.«151189_j14594298872273_1_alg».proof.Proof.Gen.ReferenceIdeal
import proofs.«151189_j14594298872273_1_alg».proof.Proof.Gen.Pre_finite_inputs
import proofs.«151189_j14594298872273_1_alg».proof.Proof.Gen.ReferenceIdeal.Run
import proofs.«151189_j14594298872273_1_alg».proof.Proof.Gen.ReferenceIdeal.Read
import proofs.«151189_j14594298872273_1_alg».proof.Proof.KernelRun
import proofs.«151189_j14594298872273_1_alg».proof.Proof.SharedRows
import proofs.«151189_j14594298872273_1_alg».proof.Proof.ReferenceLogits
import Idealize.ShloMosaic.Adequacy
import Idealize.ShloMosaic.Init

noncomputable section

namespace Cert.Proof

open Idealize.ShloMosaic Idealize.SL.Sem Cert.Logits

/-- The word-level kernel terminates, faults nowhere and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel and the reference both end with the logits of the gathered rows. -/
theorem algebraic : Cert.algebraic_KernelIdeal_ReferenceIdeal := by
  intro m ρ m' ρ' _ hagree
  refine ⟨fun c => logits (Cert.KernelIdeal.Entry.rows m c)
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Run.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  exact (Cert.ReferenceIdeal.Read.val_main_v34_eq _ _ _ _ _ _ _).trans
    ((Cert.ReferenceIdeal.RefLogits.reference_eq _ _ _ _ _ _ _).trans
      (congrArg (fun x => logits x _ _) (Cert.KernelIdeal.SharedRows.rows_eq m c).symm))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
